-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn_part1 {F : FTy → Type} [FloatOps F] (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  main_v18

def fn {F : FTy → Type} [FloatOps F] (main_arg0 : FVec F S8192x2048 .f32) (main_arg1 : FVec F S8x2048x8192 .f32) (main_arg2 : FVec F S8x2048x8192 .f32) (main_arg3 : FVec F S8x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x2048x8192 .f32 := Host.absf main_arg2
  let main_cst_2 : FVec F S_ .f32 := constant S_ .f32 0x7F800000#32
  let main_v10 : FVec F S8x2048x8192 .f32 := broadcastInDim S8x2048x8192 ![] bcast_S_S8x2048x8192 main_cst_2
  let main_v11 : IVec S8x2048x8192 1 := cmpf .olt main_v9 main_v10
  let main_c_3 : IVec S_ 1 := constantI S_ 1 1#1
  let main_v12 : IVec S_ 1 := (fun x v => Host.reduce IntOp.andi x v reducesTo_S8x2048x8192_S_d0_1_2 h_S_) main_v11 main_c_3
  let main_v13 : IVec S_ 1 := andi main_v8 main_v12
  let main_v14 : FVec F S8x8192x2048 .f32 := Host.absf main_arg3
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_v13 main_v16
-- ==== Kernel.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S256x2048 : Shape := ⟨2, ![256, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x256 : Shape := ⟨2, ![256, 256]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x2048x8192, .f32⟩
  | .hbm, ⟨3, _⟩ => ⟨S8x8192x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 32], ![false, false, false]⟩

def k0_cond2 (i : grid0.Coords) : BitVec 1 :=
  let arg2 : BitVec 32 := BitVec.ofNat 32 (i 2).val
  let c31_i32 : BitVec 32 := 31#32
  let v26 : BitVec 1 := Scalar.cmpi .eq arg2 c31_i32
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S256x2048_S2048x256_S256x256_1_0_0_1_n_n_wf : DotDims.WF S256x2048 S2048x256 S256x256 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x8192x2048.size a
  hwx0_3 : ∀ i : grid0.Coords, EltTy.bits .f32 = 32 ∨ (Rect.block (s := S8x8192x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S8x1024x2048 : Shape := ⟨3, ![8, 1024, 2048]⟩
abbrev S8x1024x8192 : Shape := ⟨3, ![8, 1024, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x2048x8192, .f32⟩
  | .hbm, ⟨3, _⟩ => ⟨S8x8192x2048, .f32⟩
  | .hbm, ⟨4, _⟩ => ⟨S8x1024x2048, .f32⟩
  | .hbm, ⟨5, _⟩ => ⟨S8x1024x8192, .f32⟩
  | .hbm, ⟨6, _⟩ => ⟨S8x1024x8192, .f32⟩
  | .hbm, ⟨7, _⟩ => ⟨S8x1024x8192, .f32⟩
  | .hbm, ⟨8, _⟩ => ⟨S8x1024x8192, .f32⟩
  | .hbm, ⟨9, _⟩ => ⟨S_, .f32⟩
  | .hbm, ⟨10, _⟩ => ⟨S8x1024x8192, .f32⟩
  | .hbm, ⟨11, _⟩ => ⟨S8x1024x8192, .f32⟩
  | .hbm, ⟨12, _⟩ => ⟨S_, .f32⟩
  | .hbm, ⟨13, _⟩ => ⟨S8x1024x8192, .f32⟩
  | .hbm, ⟨14, _⟩ => ⟨S8x1024x8192, .f32⟩
  | .hbm, ⟨15, _⟩ => ⟨S8x1024x8192, .f32⟩
  | .hbm, ⟨16, _⟩ => ⟨S8x1024x8192, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x8192 : S_.BroadcastsInDim S8x1024x8192 (![] : Fin 0 → Fin S8x1024x8192.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.Spec.lean ====
/-
  The mathematics of the expert feed-forward block, stated once, away from both programs.

  Tokens are the 8192 rows of `X`; row `r` belongs to expert `r / 1024`. For a row `r` and an inner
  feature `f` (8192 of them), the gate and up projections are the inner products of the row with column `f`
  of the expert's two weight matrices; the hidden activation is `up · (gate · σ(gate))` with
  `σ(g) = 1 / (1 + e^(-g))`; and the result at (row, col) is the sum over all inner features of the hidden
  activation times the expert's down-projection entry. All of this is over the extended reals.

  The second half is the one law the equivalence needs: a sum over the 8192 inner features is the sum, over
  the 32 tiles of 256 consecutive features, of the tiles' partial sums. It is re-indexing in a commutative
  monoid; no finiteness of the entries is used.
-/
import Idealize.ShloMosaic.PureOps.Ideal
import Idealize.ShloMosaic.Lib.ValueIdx

noncomputable section

namespace Cert.Swiglu

open Idealize.ShloMosaic Idealize.ShloMosaic.ValueIdx

/-- Token rows by hidden features. -/
abbrev SX : Shape := ⟨2, ![8192, 2048]⟩
/-- Expert, hidden feature, inner feature: the gate and up weights. -/
abbrev SW : Shape := ⟨3, ![8, 2048, 8192]⟩
/-- Expert, inner feature, hidden feature: the down weights. -/
abbrev SD : Shape := ⟨3, ![8, 8192, 2048]⟩

/-- The expert a token row belongs to: 1024 consecutive rows per expert. -/
def expertOf (row : Fin 8192) : Fin 8 := ⟨row.val / 1024, by have := row.isLt; omega⟩

/-- A projection of token `row` onto inner feature `f`: the row's inner product with column `f` of its
    expert's weight matrix. -/
def proj (X : SX.Idx → EReal) (W : SW.Idx → EReal) (row f : Fin 8192) : EReal :=
  ∑ h : Fin 2048, X (ix2 row h) * W (ix3 (expertOf row) h f)

/-- The hidden activation: the up projection times the gate projection passed through `g ↦ g · σ(g)`. -/
def hidden (X : SX.Idx → EReal) (GW UW : SW.Idx → EReal) (row f : Fin 8192) : EReal :=
  proj X UW row f * (proj X GW row f * Ideal.logistic (proj X GW row f))

/-- One inner feature's contribution to the result at (row, col). -/
def term (X : SX.Idx → EReal) (GW UW : SW.Idx → EReal) (DW : SD.Idx → EReal) (row : Fin 8192) (col : Fin 2048)
    (f : Fin 8192) : EReal :=
  hidden X GW UW row f * DW (ix3 (expertOf row) f col)

/-- The result array: at (row, col), the sum of all inner features' contributions. -/
def G (X : SX.Idx → EReal) (GW UW : SW.Idx → EReal) (DW : SD.Idx → EReal) : SX.Idx → EReal :=
  fun i => ∑ f : Fin 8192, term X GW UW DW (i 0) (i 1) f

/-! ## Thirty-two tiles of 256 inner features -/

/-- Inner feature `k` of tile `s` (the tile number taken modulo 32, so that it is defined for every natural). -/
def tileIdx (s : ℕ) (k : Fin 256) : Fin 8192 :=
  ⟨(s % 32) * 256 + k.val, by have := k.isLt; have := Nat.mod_lt s (show 0 < 32 by decide); omega⟩

/-- The partial sum of `a` over tile `s`. -/
def tileSum (a : Fin 8192 → EReal) (s : ℕ) : EReal := ∑ k : Fin 256, a (tileIdx s k)

/-- A sum over all inner features is the sum over the 32 tiles of the tiles' partial sums. -/
theorem sum_tiles (a : Fin 8192 → EReal) : ∑ f : Fin 8192, a f = ∑ s ∈ Finset.range 32, tileSum a s := by
  rw [Finset.sum_range (fun s => tileSum a s)]
  rw [show (∑ f : Fin 8192, a f) = ∑ p : Fin 32 × Fin 256, a (finProdFinEquiv p) from
    (Equiv.sum_comp (finProdFinEquiv (m := 32) (n := 256)) a).symm]
  rw [Fintype.sum_prod_type]
  refine Finset.sum_congr rfl fun s _ => ?_
  unfold tileSum
  refine Finset.sum_congr rfl fun k _ => ?_
  congr 1
  apply Fin.ext
  show k.val + 256 * s.val = (s.val % 32) * 256 + k.val
  rw [Nat.mod_eq_of_lt s.isLt]
  omega

end Cert.Swiglu

end
-- ==== Proof.RefValue.lean ====
/-
  The reference program computes the specification.

  The reference views the 8192 token rows as 8 experts of 1024 rows, takes the gate and up projections as
  batched inner products over the 2048 hidden features, passes the gate through `g ↦ g · (1 / (1 + e^(-g)))`,
  multiplies by the up projection, contracts the 8192 inner features against the down weights, and views
  the result again as 8192 rows. Read at a row `r` and a column `c`, the two views cancel: the row of the
  three-axis array is `(r / 1024, r % 1024)`, and `(r / 1024) · 1024 + r % 1024 = r`. What is left is, term by
  term, the specification's sum; `1 / (1 + e^(-g))` is the logistic function by definition.
-/
import proofs.«134705_j5394478924014_1_alg».proof.Proof.Gen.ReferenceIdeal.Read
import proofs.«134705_j5394478924014_1_alg».proof.Proof.Spec
noncomputable section
namespace Cert.ReferenceIdeal.RefValue
open Cert.ReferenceIdeal Cert.ReferenceIdeal.Read Idealize.ShloMosaic Idealize.ShloMosaic.ValueIdx

/-- The bit pattern `0x3F800000` is the number one. -/
theorem ofBits_one_f32 : Ideal.ofBits .f32 0x3F800000#32 = 1 := by
  simp [Ideal.ofBits, Ideal.ieee, -EReal.coe_mul]; norm_num

/-! ## The two views cancel -/

/-- The expert of the three-axis view of row `i 0` is `(i 0) / 1024`. -/
theorem expert_eq (i : S8192x2048.Idx) : idx_main_v6 i 0 = Cert.Swiglu.expertOf (i 0) := by
  apply Fin.ext
  have h0 : (i 0).val < 8192 := (i 0).isLt
  have h1 : (i 1).val < 2048 := (i 1).isLt
  show ((i 0).val * 2048 + (i 1).val) / 2097152 = (i 0).val / 1024
  omega

/-- The token entry the projections read: row `i 0`, hidden feature `h`. -/
theorem tok_idx (i : S8192x2048.Idx) (f : Fin 8192) (h : Fin 2048) :
    idx_main_v0 (lidx_main_v1 (lidx_main_v5 (idx_main_v6 i) f) h) = ix2 (i 0) h := by
  have h0 : (i 0).val < 8192 := (i 0).isLt
  have h1 : (i 1).val < 2048 := (i 1).isLt
  have h2 : h.val < 2048 := h.isLt
  funext a
  match a with
  | ⟨0, _⟩ =>
    apply Fin.ext
    show ((((i 0).val * 2048 + (i 1).val) / 2097152 * 1024 + ((i 0).val * 2048 + (i 1).val) / 2048 % 1024) * 2048 + h.val) / 2048 = (i 0).val
    omega
  | ⟨1, _⟩ =>
    apply Fin.ext
    show ((((i 0).val * 2048 + (i 1).val) / 2097152 * 1024 + ((i 0).val * 2048 + (i 1).val) / 2048 % 1024) * 2048 + h.val) % 2048 = h.val
    omega

/-- The gate or up weight the projections read: the row's expert, hidden feature `h`, inner feature `f`. -/
theorem wt_idx (i : S8192x2048.Idx) (f : Fin 8192) (h : Fin 2048) :
    ridx_main_v1 (lidx_main_v5 (idx_main_v6 i) f) h = ix3 (Cert.Swiglu.expertOf (i 0)) h f := by
  funext a
  match a with
  | ⟨0, _⟩ => exact expert_eq i
  | ⟨1, _⟩ => rfl
  | ⟨2, _⟩ => rfl

/-- The down weight the last contraction reads: the row's expert, inner feature `f`, column `i 1`. -/
theorem down_idx (i : S8192x2048.Idx) (f : Fin 8192) :
    ridx_main_v5 (idx_main_v6 i) f = ix3 (Cert.Swiglu.expertOf (i 0)) f (i 1) := by
  have h0 : (i 0).val < 8192 := (i 0).isLt
  have h1 : (i 1).val < 2048 := (i 1).isLt
  funext a
  match a with
  | ⟨0, _⟩ => exact expert_eq i
  | ⟨1, _⟩ => rfl
  | ⟨2, _⟩ =>
    apply Fin.ext
    show ((i 0).val * 2048 + (i 1).val) % 2048 = (i 1).val
    omega

/-! ## The projections -/

/-- The gate projection, read at the three-axis view of row `i 0` and inner feature `f`. -/
theorem gate_eq (X : (⟨S8192x2048, .f32⟩ : BufTy).Contents (Elt Ideal)) (GW : (⟨S8x2048x8192, .f32⟩ : BufTy).Contents (Elt Ideal))
    (i : S8192x2048.Idx) (f : Fin 8192) :
    val_main_v1 (F := Ideal) X GW (lidx_main_v5 (idx_main_v6 i) f) = Cert.Swiglu.proj X GW (i 0) f := by
  rw [val_main_v1_apply]
  unfold Cert.Swiglu.proj
  refine Finset.sum_congr rfl fun h _ => ?_
  rw [val_main_v0_apply, tok_idx, wt_idx]
  rfl

/-- The up projection likewise. -/
theorem up_eq (X : (⟨S8192x2048, .f32⟩ : BufTy).Contents (Elt Ideal)) (UW : (⟨S8x2048x8192, .f32⟩ : BufTy).Contents (Elt Ideal))
    (i : S8192x2048.Idx) (f : Fin 8192) :
    val_main_v2 (F := Ideal) X UW (lidx_main_v5 (idx_main_v6 i) f) = Cert.Swiglu.proj X UW (i 0) f := by
  rw [val_main_v2_apply]
  unfold Cert.Swiglu.proj
  refine Finset.sum_congr rfl fun h _ => ?_
  rw [val_main_v0_apply]
  exact congrArg₂ (· * ·) (congrArg X (tok_idx i f h)) (congrArg UW (wt_idx i f h))

/-! ## The activation -/

/-- `g · (1 / (1 + e^(-g)))`, as the reference spells it, is `g · σ(g)`. -/
theorem silu_eq (X : (⟨S8192x2048, .f32⟩ : BufTy).Contents (Elt Ideal)) (GW : (⟨S8x2048x8192, .f32⟩ : BufTy).Contents (Elt Ideal))
    (j : S8x1024x8192.Idx) :
    val_main_v3 (F := Ideal) X GW j
      = val_main_v1 (F := Ideal) X GW j * Ideal.logistic (val_main_v1 (F := Ideal) X GW j) := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, ofBits_one_f32, Ideal.mulf_def, Ideal.hostDivf_def, Ideal.addf_def, Ideal.hostUnary_exp_def,
    Ideal.hostNegf_def, Ideal.negf_def]
  rfl

/-! ## The result -/

theorem ref_is_G (X : (⟨S8192x2048, .f32⟩ : BufTy).Contents (Elt Ideal)) (GW UW : (⟨S8x2048x8192, .f32⟩ : BufTy).Contents (Elt Ideal))
    (DW : (⟨S8x8192x2048, .f32⟩ : BufTy).Contents (Elt Ideal)) :
    val_main_v6 (F := Ideal) X GW UW DW = Cert.Swiglu.G X GW UW DW := by
  funext i
  rw [val_main_v6_apply, val_main_v5_apply]
  unfold Cert.Swiglu.G Cert.Swiglu.term Cert.Swiglu.hidden
  refine Finset.sum_congr rfl fun f _ => ?_
  rw [val_main_v4_apply, silu_eq, gate_eq, up_eq, down_idx]
  rfl

end Cert.ReferenceIdeal.RefValue
end
-- ==== Proof.Pieces.lean ====
/-
  What one run of the kernel body leaves behind, as values of its input blocks.

  The body keeps a running block `acc` of shape [256, 2048] in scratch. At the first inner tile it overwrites
  the scratch with zeros; at every tile it then replaces the scratch by `step x g u d acc`, the block
  `acc + (x·u ⊙ silu(x·g)) · d` of the token block `x` and the three weight tiles; at the last inner tile it
  also copies the scratch into the output block. Here `step` is the body's second stored value and the zero
  block its first. So the scratch ends at `step … zero` after a first tile, at `step … acc` after any other,
  and the output block after a last tile is that same `step … acc`.
-/
import proofs.«134705_j5394478924014_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a tile that is neither first nor last, the scratch holds the step applied to what it held. -/
theorem scratch_mid (c : Dev nD) (i : grid0.Coords) (arg3 : Memref sig .tc .vmem S256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : ¬cond0_1 i)
    (x0 : Vec F S256x2048 .f32) (x1 : Vec F S1x2048x256 .f32) (x2 : Vec F S1x2048x256 .f32) (x3 : Vec F S1x256x2048 .f32) (xs0 : Vec F S256x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S256x2048) hz2]
  simp only [View.readAt_eq_ld, harg3.read_unread, harg4.read_unread, harg5.read_unread, harg6.read_unread, harg8.read_unread,
    View.ld_unit_zero (S := S256x2048) hz2, View.ld_unit_zero (S := S1x2048x256) hz3, View.ld_unit_zero (S := S1x256x2048) hz3]

/-- After a first tile, the scratch holds the step applied to the zero block: the zeros are stored, read back,
    and accumulated into. -/
theorem scratch_first (c : Dev nD) (i : grid0.Coords) (arg3 : Memref sig .tc .vmem S256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .f32) (harg8 : arg8.IsWhole) (hc0 : cond0_0 i) (hc1 : ¬cond0_1 i)
    (x0 : Vec F S256x2048 .f32) (x1 : Vec F S1x2048x256 .f32) (x2 : Vec F S1x2048x256 .f32) (x3 : Vec F S1x256x2048 .f32) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S256x2048) hz2, View.readCov_unit_zero (S := S256x2048) _ hz2]
  simp only [View.readAt_eq_ld, harg3.read_unread, harg4.read_unread, harg5.read_unread, harg6.read_unread, harg8.read_unread,
    View.ld_unit_zero (S := S256x2048) hz2, View.ld_unit_zero (S := S1x2048x256) hz3, View.ld_unit_zero (S := S1x256x2048) hz3]

/-- After a last tile, the scratch holds the step applied to what it held, -/
theorem scratch_last (c : Dev nD) (i : grid0.Coords) (arg3 : Memref sig .tc .vmem S256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : cond0_1 i)
    (x0 : Vec F S256x2048 .f32) (x1 : Vec F S1x2048x256 .f32) (x2 : Vec F S1x2048x256 .f32) (x3 : Vec F S1x256x2048 .f32) (xs0 : Vec F S256x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S256x2048) hz2]
  simp only [View.readAt_eq_ld, harg3.read_unread, harg4.read_unread, harg5.read_unread, harg6.read_unread, harg8.read_unread,
    View.ld_unit_zero (S := S256x2048) hz2, View.ld_unit_zero (S := S1x2048x256) hz3, View.ld_unit_zero (S := S1x256x2048) hz3]

/-- and the output block is the scratch read back: the same value. -/
theorem out_last (c : Dev nD) (i : grid0.Coords) (arg3 : Memref sig .tc .vmem S256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : cond0_1 i)
    (x0 : Vec F S256x2048 .f32) (x1 : Vec F S1x2048x256 .f32) (x2 : Vec F S1x2048x256 .f32) (x3 : Vec F S1x256x2048 .f32) (xs0 : Vec F S256x2048 .f32) :
    out0_C_4 c i arg3 harg3 arg4 harg4 arg5 harg5 arg6 harg6 arg7 harg7 arg8 harg8 hc0 hc1 x0 x1 x2 x3 xs0 = k0_pay2 x0 x1 x2 x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S256x2048) hz2, View.readCov_unit_zero (S := S256x2048) _ hz2]
  simp only [View.readAt_eq_ld, harg3.read_unread, harg4.read_unread, harg5.read_unread, harg6.read_unread, harg8.read_unread,
    View.ld_unit_zero (S := S256x2048) hz2, View.ld_unit_zero (S := S1x2048x256) hz3, View.ld_unit_zero (S := S1x256x2048) hz3]

end Cert.KernelIdeal.Pieces

end
-- ==== Proof.Blocks.lean ====
/-
  Where each block of the grid sits in its array.

  The grid is 8 experts × 4 token tiles × 32 inner tiles, visited in row-major order: point `t` is expert
  `t / 128`, token tile `(t / 32) % 4`, inner tile `t % 32`. The token block and the output block at `t` are
  rows `(t / 32)·256 …` of their arrays (the expert's 1024 rows are four tiles of 256); the gate and up tiles are
  columns `(t % 32)·256 …` of the expert's weight matrices; the down tile is rows `(t % 32)·256 …` of the
  expert's down matrix.
-/
import proofs.«134705_j5394478924014_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the five windows at a point, decided once over the grid. -/
theorem index_x : ∀ t : Fin cfg0.N, win0_0.index t 0 = t.val / 32 ∧ win0_0.index t 1 = 0 :=
  (by decide +kernel : ∀ t : Fin grid0.N, win0_0.index t 0 = t.val / 32 ∧ win0_0.index t 1 = 0)
theorem index_g : ∀ t : Fin cfg0.N, win0_1.index t 0 = t.val / 128 ∧ win0_1.index t 1 = 0 ∧ win0_1.index t 2 = t.val % 32 :=
  (by decide +kernel : ∀ t : Fin grid0.N, win0_1.index t 0 = t.val / 128 ∧ win0_1.index t 1 = 0 ∧ win0_1.index t 2 = t.val % 32)
theorem index_u : ∀ t : Fin cfg0.N, win0_2.index t 0 = t.val / 128 ∧ win0_2.index t 1 = 0 ∧ win0_2.index t 2 = t.val % 32 :=
  (by decide +kernel : ∀ t : Fin grid0.N, win0_2.index t 0 = t.val / 128 ∧ win0_2.index t 1 = 0 ∧ win0_2.index t 2 = t.val % 32)
theorem index_d : ∀ t : Fin cfg0.N, win0_3.index t 0 = t.val / 128 ∧ win0_3.index t 1 = t.val % 32 ∧ win0_3.index t 2 = 0 :=
  (by decide +kernel : ∀ t : Fin grid0.N, win0_3.index t 0 = t.val / 128 ∧ win0_3.index t 1 = t.val % 32 ∧ win0_3.index t 2 = 0)
theorem index_o : ∀ t : Fin cfg0.N, win0_4.index t 0 = t.val / 32 ∧ win0_4.index t 1 = 0 :=
  (by decide +kernel : ∀ t : Fin grid0.N, win0_4.index t 0 = t.val / 32 ∧ win0_4.index t 1 = 0)

theorem N_eq : cfg0.N = 1024 := N_0

/-- The token row of the array that row `r` of the block at point `t` is. -/
def rowAt (t : Fin cfg0.N) (r : Fin 256) : Fin 8192 :=
  ⟨(t.val / 32) * 256 + r.val, by have := lt_of_lt_of_eq t.isLt N_eq; have := r.isLt; omega⟩
/-- The expert of point `t`. -/
def expertAt (t : Fin cfg0.N) : Fin 8 := ⟨t.val / 128, by have := lt_of_lt_of_eq t.isLt N_eq; omega⟩
/-- The inner feature that column (or row) `k` of the weight tiles at point `t` is. -/
def featAt (t : Fin cfg0.N) (k : Fin 256) : Fin 8192 :=
  ⟨(t.val % 32) * 256 + k.val, by have := k.isLt; omega⟩

/-- The token block at point `t`, entry (r, h): the array's entry (rowAt t r, h). -/
theorem x_apply (c : Dev nD) (t : Fin cfg0.N) (r : Fin 256) (h : Fin 2048) :
    (iblk m c 0 t : Vec F S256x2048 .f32) (ix2 r h) = V m c main_arg0 (ix2 (rowAt t r) h) := by
  unfold iblk
  rw [View.read_apply]
  show V m c main_arg0 _ = V m c main_arg0 _
  congr 1
  funext a
  apply Fin.ext
  match a with
  | ⟨0, _⟩ => show win0_0.index t 0 * 256 + 1 * r.val = (t.val / 32) * 256 + r.val; rw [(index_x t).1]; omega
  | ⟨1, _⟩ => show win0_0.index t 1 * 2048 + 1 * h.val = h.val; rw [(index_x t).2]; omega

/-- The gate tile at point `t`, entry (0, h, k): the expert's gate weight at (h, featAt t k). -/
theorem g_apply (c : Dev nD) (t : Fin cfg0.N) (h : Fin 2048) (k : Fin 256) :
    (iblk m c 1 t : Vec F S1x2048x256 .f32) (ix3 (0 : Fin 1) h k) = V m c main_arg1 (ix3 (expertAt t) h (featAt t k)) := by
  unfold iblk
  rw [View.read_apply]
  show V m c main_arg1 _ = V m c main_arg1 _
  congr 1
  funext a
  apply Fin.ext
  match a with
  | ⟨0, _⟩ => show win0_1.index t 0 * 1 + 1 * 0 = t.val / 128; rw [(index_g t).1]; omega
  | ⟨1, _⟩ => show win0_1.index t 1 * 2048 + 1 * h.val = h.val; rw [(index_g t).2.1]; omega
  | ⟨2, _⟩ => show win0_1.index t 2 * 256 + 1 * k.val = (t.val % 32) * 256 + k.val; rw [(index_g t).2.2]; omega

/-- The up tile at point `t`, entry (0, h, k): the expert's up weight at (h, featAt t k). -/
theorem u_apply (c : Dev nD) (t : Fin cfg0.N) (h : Fin 2048) (k : Fin 256) :
    (iblk m c 2 t : Vec F S1x2048x256 .f32) (ix3 (0 : Fin 1) h k) = V m c main_arg2 (ix3 (expertAt t) h (featAt t k)) := by
  unfold iblk
  rw [View.read_apply]
  show V m c main_arg2 _ = V m c main_arg2 _
  congr 1
  funext a
  apply Fin.ext
  match a with
  | ⟨0, _⟩ => show win0_2.index t 0 * 1 + 1 * 0 = t.val / 128; rw [(index_u t).1]; omega
  | ⟨1, _⟩ => show win0_2.index t 1 * 2048 + 1 * h.val = h.val; rw [(index_u t).2.1]; omega
  | ⟨2, _⟩ => show win0_2.index t 2 * 256 + 1 * k.val = (t.val % 32) * 256 + k.val; rw [(index_u t).2.2]; omega

/-- The down tile at point `t`, entry (0, k, col): the expert's down weight at (featAt t k, col). -/
theorem d_apply (c : Dev nD) (t : Fin cfg0.N) (k : Fin 256) (col : Fin 2048) :
    (iblk m c 3 t : Vec F S1x256x2048 .f32) (ix3 (0 : Fin 1) k col) = V m c main_arg3 (ix3 (expertAt t) (featAt t k) col) := by
  unfold iblk
  rw [View.read_apply]
  show V m c main_arg3 _ = V m c main_arg3 _
  congr 1
  funext a
  apply Fin.ext
  match a with
  | ⟨0, _⟩ => show win0_3.index t 0 * 1 + 1 * 0 = t.val / 128; rw [(index_d t).1]; omega
  | ⟨1, _⟩ => show win0_3.index t 1 * 256 + 1 * k.val = (t.val % 32) * 256 + k.val; rw [(index_d t).2.1]; omega
  | ⟨2, _⟩ => show win0_3.index t 2 * 2048 + 1 * col.val = col.val; rw [(index_d t).2.2]; omega

end Cert.KernelIdeal.Blocks

end
-- ==== Proof.Payload.lean ====
import proofs.«134705_j5394478924014_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Pay
open Cert.KernelIdeal Cert.KernelIdeal.Gen Idealize.ShloMosaic Idealize.ShloMosaic.ValueIdx

/-- A row of the token block against a column of a weight tile. -/
def bproj (x : Vec Ideal S256x2048 .f32) (w : Vec Ideal S1x2048x256 .f32) (r k : Fin 256) : EReal :=
  ∑ h : Fin 2048, x (ix2 r h) * w (ix3 (0 : Fin 1) h k)

/-! ## The first product's operand indices, axis by axis -/

private theorem lhsA_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
private theorem lhsA_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
private theorem rhsA_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
private theorem rhsA_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The [256,2048] by [2048,256] product into the zero accumulator, at (p, q): the row's inner product with the column. -/
private theorem mmA_apply (a : FVec Ideal S256x2048 .bf16) (b : FVec Ideal S2048x256 .bf16) (p q : Fin 256) :
    matmul dot_S256x2048_S2048x256_S256x256_1_0_0_1_n_n none a b (constant (F := Ideal) S256x256 .f32 0x00000000#32) (ix2 p q)
      = ∑ h : Fin 2048, a (ix2 p h) * b (ix2 h q) := by
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q) ((contrEquiv1 dot_S256x2048_S2048x256_S256x256_1_0_0_1_n_n 2048 rfl rfl).symm k) = ix2 p k := funext fun a => Fin.ext (by
    match a with
    | ⟨0, _⟩ => exact lhsA_0 _ _
    | ⟨1, _⟩ => exact (lhsA_1 _ _).trans hk)
  have er : dot_S256x2048_S2048x256_S256x256_1_0_0_1_n_n.rhsIdx (ix2 p q) ((contrEquiv1 dot_S256x2048_S2048x256_S256x256_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

/-! ## The second product's operand indices, axis by axis -/

private theorem lhsB_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
private theorem lhsB_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
private theorem rhsB_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
private theorem rhsB_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The [256,256] by [256,2048] product into the zero accumulator, at (r, c): the row's inner product with the column. -/
private theorem mmB_apply (a : FVec Ideal S256x256 .bf16) (b : FVec Ideal S256x2048 .bf16) (r : Fin 256) (c : Fin 2048) :
    matmul dot_S256x256_S256x2048_S256x2048_1_0_0_1_n_n none a b (constant (F := Ideal) S256x2048 .f32 0x00000000#32) (ix2 r c)
      = ∑ k : Fin 256, a (ix2 r k) * b (ix2 k c) := by
  simp only [matmul]
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 r c) ((contrEquiv1 dot_S256x256_S256x2048_S256x2048_1_0_0_1_n_n 256 rfl rfl).symm k) = ix2 r k := funext fun a => Fin.ext (by
    match a with
    | ⟨0, _⟩ => exact lhsB_0 _ _
    | ⟨1, _⟩ => exact (lhsB_1 _ _).trans hk)
  have er : dot_S256x256_S256x2048_S256x2048_1_0_0_1_n_n.rhsIdx (ix2 r c) ((contrEquiv1 dot_S256x256_S256x2048_S256x2048_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## The body's stages at an index -/

/-- The logistic function of a vector, element by element. -/
private theorem logistic_apply {s : Shape} {φ : FTy} (a : FVec Ideal s φ) (i : s.Idx) :
    logistic a i = Ideal.logistic (a i) := rfl

/-- The token block against a weight tile with its unit axis cast away: at (p, q), row p's inner product with
    column q of the tile. The narrowing to bf16 is the identity on the extended reals. -/
private theorem proj_apply (x : Vec Ideal S256x2048 .f32) (w : Vec Ideal S1x2048x256 .f32) (p q : Fin 256) :
    matmul dot_S256x2048_S2048x256_S256x256_1_0_0_1_n_n none (truncf .bf16 x bitsLt_bf16_f32)
        (truncf .bf16 (shapeCast S2048x256 w shapeCasts_S1x2048x256_S2048x256) bitsLt_bf16_f32)
        (constant (F := Ideal) S256x256 .f32 0x00000000#32) (ix2 p q)
      = bproj x w p q := by
  refine (mmA_apply _ _ p q).trans ?_
  unfold bproj
  refine Finset.sum_congr rfl fun h _ => ?_
  rw [truncf_apply, truncf_apply, shapeCast_1ab_ab_apply]

theorem pay1_apply (j : S256x2048.Idx) : k0_pay1 (F := Ideal) j = 0 := by
  unfold k0_pay1
  refine (congrFun (shapeCast_self _ _) j).trans ?_
  exact Ideal.ofBits_zero_f32

theorem pay2_apply (x0 : Vec Ideal S256x2048 .f32) (x1 x2 : Vec Ideal S1x2048x256 .f32) (x3 : Vec Ideal S1x256x2048 .f32)
    (acc : Vec Ideal S256x2048 .f32) (r : Fin 256) (c : Fin 2048) :
    k0_pay2 (F := Ideal) x0 x1 x2 x3 acc (ix2 r c)
      = acc (ix2 r c) + ∑ k : Fin 256,
          (bproj x0 x2 r k * (bproj x0 x1 r k * Ideal.logistic (bproj x0 x1 r k))) * x3 (ix3 (0 : Fin 1) k c) := by
  unfold k0_pay2
  refine (congrFun (shapeCast_self _ _) (ix2 r c)).trans ?_
  refine (addf_apply _ _ _).trans ?_
  refine congrArg (acc (ix2 r c) + ·) ?_
  refine (mmB_apply _ _ r c).trans ?_
  refine Finset.sum_congr rfl fun k _ => ?_
  rw [truncf_apply, truncf_apply, shapeCast_1ab_ab_apply, mulf_apply, mulf_apply, logistic_apply, proj_apply, proj_apply]

end Cert.KernelIdeal.Pay
end
-- ==== Proof.Fold.lean ====
/-
  The kernel's result array is the specification.

  Fix a token tile (an expert and one of its four tiles of 256 rows). Over its 32 inner tiles the body keeps a
  running block in scratch: zero, then at each inner tile the tile's addend
      A_t(r, c) = Σ_{k < 256} hidden(row r, feature (t % 32)·256 + k) · down(expert, that feature, c)
  is added to it. After inner tile `s` the scratch therefore holds `0 + Σ_{s' ≤ s} A`, and at the last inner tile
  (the only one whose output block is written back) the output block is the scratch: `0 + Σ_{s' < 32} A`. Each
  addend is the specification's sum over one tile of inner features, and the 32 tiles make up all 8192 of them,
  so the block is the specification read at the block's rows. The 32 written-back blocks (one per token tile)
  tile the 8192 rows, so the whole array is the specification.
-/
import proofs.«134705_j5394478924014_1_alg».proof.Proof.Gen.KernelIdeal.Value
import proofs.«134705_j5394478924014_1_alg».proof.Proof.Pieces
import proofs.«134705_j5394478924014_1_alg».proof.Proof.Blocks
import proofs.«134705_j5394478924014_1_alg».proof.Proof.Payload
import proofs.«134705_j5394478924014_1_alg».proof.Proof.Spec
import Idealize.ShloMosaic.Lib.Pipeline.Value
import Idealize.ShloMosaic.Lib.ValueIdx

set_option maxRecDepth 16384

noncomputable section

namespace Cert.KernelIdeal.Fold

open Cert.KernelIdeal Cert.KernelIdeal.Gen Cert.KernelIdeal.Value Cert.KernelIdeal.Blocks Cert.KernelIdeal.Pay
open Cert.KernelIdeal.Pieces Cert.Swiglu
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four argument arrays as the run finds them. -/
abbrev X (c : Dev nD) : SX.Idx → EReal := m ((c : Thread nD τ).loc main_arg0)
abbrev GW (c : Dev nD) : SW.Idx → EReal := m ((c : Thread nD τ).loc main_arg1)
abbrev UW (c : Dev nD) : SW.Idx → EReal := m ((c : Thread nD τ).loc main_arg2)
abbrev DW (c : Dev nD) : SD.Idx → EReal := m ((c : Thread nD τ).loc main_arg3)

/-- The blocks at a point, at their literal shapes. -/
abbrev xb (c : Dev nD) (t : Fin cfg0.N) : Vec Ideal S256x2048 .f32 := iblk m c 0 t
abbrev gb (c : Dev nD) (t : Fin cfg0.N) : Vec Ideal S1x2048x256 .f32 := iblk m c 1 t
abbrev ub (c : Dev nD) (t : Fin cfg0.N) : Vec Ideal S1x2048x256 .f32 := iblk m c 2 t
abbrev db (c : Dev nD) (t : Fin cfg0.N) : Vec Ideal S1x256x2048 .f32 := iblk m c 3 t

/-- Point `t`'s addend to the running block, at (r, col). -/
def addend (c : Dev nD) (t : Fin cfg0.N) (r : Fin 256) (col : Fin 2048) : EReal :=
  ∑ k : Fin 256, (bproj (xb m c t) (ub m c t) r k * (bproj (xb m c t) (gb m c t) r k * Ideal.logistic (bproj (xb m c t) (gb m c t) r k)))
    * db m c t (ix3 (0 : Fin 1) k col)

/-- The same for every natural (zero past the grid, where it is never used). -/
def addendN (c : Dev nD) (n : ℕ) (j : S256x2048.Idx) : EReal :=
  if h : n < cfg0.N then addend m c ⟨n, h⟩ (j 0) (j 1) else 0

theorem addendN_of_lt (c : Dev nD) (n : ℕ) (h : n < cfg0.N) (j : S256x2048.Idx) :
    addendN m c n j = addend m c ⟨n, h⟩ (j 0) (j 1) := dif_pos h

/-! ## One point's effect on the scratch, at an index -/

/-- At a point that is not a first inner tile, the scratch gains the point's addend. -/
theorem step_apply (c : Dev nD) (n : ℕ) (hb : n < cfg0.N) (h0 : ¬n % 32 = 0) (acc : Vec Ideal S256x2048 .f32)
    (j : S256x2048.Idx) : scAt0_0 m c n hb acc j = acc j + addendN m c n j := by
  rw [addendN_of_lt m c n hb]
  obtain ⟨r, col, rfl⟩ : ∃ (r : Fin 256) (col : Fin 2048), j = ix2 r col := ⟨j 0, j 1, eq_ix2 j⟩
  unfold scAt0_0
  rw [dif_neg h0]
  by_cases h1 : n % 32 = 31
  · rw [dif_pos h1, scratch_last]
    exact pay2_apply _ _ _ _ _ r col
  · rw [dif_neg h1, scratch_mid]
    exact pay2_apply _ _ _ _ _ r col

/-- At a first inner tile the scratch is set to zero plus the point's addend, whatever it held. -/
theorem reset_apply (c : Dev nD) (n : ℕ) (hb : n < cfg0.N) (h0 : n % 32 = 0) (acc : Vec Ideal S256x2048 .f32)
    (j : S256x2048.Idx) : scAt0_0 m c n hb acc j = 0 + addendN m c n j := by
  rw [addendN_of_lt m c n hb]
  obtain ⟨r, col, rfl⟩ : ∃ (r : Fin 256) (col : Fin 2048), j = ix2 r col := ⟨j 0, j 1, eq_ix2 j⟩
  have h1 : ¬n % 32 = 31 := by omega
  unfold scAt0_0
  rw [dif_pos h0, dif_neg h1, scratch_first]
  refine (pay2_apply _ _ _ _ _ r col).trans ?_
  rw [pay1_apply]
  rfl

/-- THE RUNNING BLOCK after point `t`: zero plus the addends of the token tile's inner tiles up to `t`'s. -/
theorem scratch_after (c : Dev nD) (t : Fin cfg0.N) (j : S256x2048.Idx) :
    (outsAt0 m c t.val t.isLt).2 j
      = 0 + ∑ s ∈ Finset.range (t.val % 32 + 1), addendN m c (32 * (t.val / 32) + s) j := by
  rw [soutsAt0_0_eq m c t]
  exact Pipeline.accAt_add_apply (fun n h => scAt0_0 m c n h (VS0_0.read (Elt Ideal) VS0_0.junk)) (scAt0_0 m c)
    (fun _ => (0 : EReal)) (addendN m c) (32 * (t.val / 32)) 31
    (fun h i => reset_apply m c _ h (Nat.mul_mod_right _ _) _ i)
    (fun n h acc i hlt hle => step_apply m c n h (by omega) acc i)
    (t.val % 32) (by have := Nat.mod_lt t.val (show 0 < 32 by decide); omega) _ j

/-! ## An addend is one tile of the specification's sum -/

theorem expert_row (t : Fin cfg0.N) (r : Fin 256) : expertOf (rowAt t r) = expertAt t := by
  apply Fin.ext
  have := r.isLt
  show ((t.val / 32) * 256 + r.val) / 1024 = t.val / 128
  omega

theorem tile_feat (t : Fin cfg0.N) (k : Fin 256) : tileIdx t.val k = featAt t k := rfl

/-- A row of the token block against a column of a weight tile is the specification's projection. -/
theorem bproj_g (c : Dev nD) (t : Fin cfg0.N) (r k : Fin 256) :
    bproj (xb m c t) (gb m c t) r k = proj (X m c) (GW m c) (rowAt t r) (featAt t k) := by
  unfold bproj proj
  refine Finset.sum_congr rfl fun h _ => ?_
  rw [expert_row]
  exact congrArg₂ (· * ·) (x_apply m c t r h) (g_apply m c t h k)

theorem bproj_u (c : Dev nD) (t : Fin cfg0.N) (r k : Fin 256) :
    bproj (xb m c t) (ub m c t) r k = proj (X m c) (UW m c) (rowAt t r) (featAt t k) := by
  unfold bproj proj
  refine Finset.sum_congr rfl fun h _ => ?_
  rw [expert_row]
  exact congrArg₂ (· * ·) (x_apply m c t r h) (u_apply m c t h k)

/-- An entry of the down tile is the expert's down weight at the tile's inner feature. -/
theorem db_apply (c : Dev nD) (t : Fin cfg0.N) (k : Fin 256) (col : Fin 2048) :
    db m c t (ix3 (0 : Fin 1) k col) = DW m c (ix3 (expertAt t) (featAt t k) col) := d_apply m c t k col

theorem addend_eq (c : Dev nD) (t : Fin cfg0.N) (r : Fin 256) (col : Fin 2048) :
    addend m c t r col = tileSum (term (X m c) (GW m c) (UW m c) (DW m c) (rowAt t r) col) t.val := by
  unfold addend tileSum
  refine Finset.sum_congr rfl fun k _ => ?_
  rw [bproj_g, bproj_u, db_apply, tile_feat]
  unfold Cert.Swiglu.term Cert.Swiglu.hidden
  rw [expert_row]

/-- The addend of inner tile `s` of the token tile of `t`. -/
theorem addendN_tile (c : Dev nD) (t : Fin cfg0.N) (s : ℕ) (hs : s < 32) (r : Fin 256) (col : Fin 2048) :
    addendN m c (32 * (t.val / 32) + s) (ix2 r col)
      = tileSum (term (X m c) (GW m c) (UW m c) (DW m c) (rowAt t r) col) s := by
  have hN : t.val < 1024 := lt_of_lt_of_eq t.isLt N_eq
  have hn : 32 * (t.val / 32) + s < cfg0.N := lt_of_lt_of_eq (by omega : 32 * (t.val / 32) + s < 1024) N_eq.symm
  rw [addendN_of_lt m c _ hn]
  show addend m c ⟨32 * (t.val / 32) + s, hn⟩ r col = _
  rw [addend_eq]
  have hrow : rowAt (⟨32 * (t.val / 32) + s, hn⟩ : Fin cfg0.N) r = rowAt t r := by
    apply Fin.ext
    show (32 * (t.val / 32) + s) / 32 * 256 + r.val = t.val / 32 * 256 + r.val
    have : (32 * (t.val / 32) + s) / 32 = t.val / 32 := by omega
    rw [this]
  rw [hrow]
  unfold tileSum
  refine Finset.sum_congr rfl fun k _ => ?_
  congr 1
  apply Fin.ext
  show (32 * (t.val / 32) + s) % 32 * 256 + k.val = s % 32 * 256 + k.val
  have : (32 * (t.val / 32) + s) % 32 = s % 32 := by omega
  rw [this]

/-! ## The written-back block, and the array -/

/-- At a last inner tile the output block is the specification at the block's rows. -/
theorem out_block (c : Dev nD) (t : Fin cfg0.N) (h31 : t.val % 32 = 31) (r : Fin 256) (col : Fin 2048) :
    (outsAt0 m c t.val t.isLt).1 (ix2 r col) = G (X m c) (GW m c) (UW m c) (DW m c) (ix2 (rowAt t r) col) := by
  have h0 : ¬t.val % 32 = 0 := by omega
  have e12 : (outsAt0 m c t.val t.isLt).1 = (outsAt0 m c t.val t.isLt).2 := by
    rw [outsAt0_C m c t h0 h31]
    dsimp only
    rw [out_last, scratch_last]
  rw [e12, scratch_after, h31, zero_add]
  show _ = ∑ f : Fin 8192, term (X m c) (GW m c) (UW m c) (DW m c) (rowAt t r) col f
  rw [sum_tiles]
  refine Finset.sum_congr rfl fun s hs => ?_
  exact addendN_tile m c t s (Finset.mem_range.mp hs) r col

/-- What a flushing point writes back is its block of the specification. -/
theorem flushed_eq (c : Dev nD) (t : Fin cfg0.N) (hf : (cfg0.win 4).flush t = true) :
    (dats m 0 c).flushed 4 t = ((cfg0.win 4).blk t).view.read (Elt Ideal) (G (X m c) (GW m c) (UW m c) (DW m c)) := by
  have h31 : t.val % 32 = 31 := (flush0_4 t).mp hf
  rw [flushed4]
  funext j
  show (outsAt0 m c t.val t.isLt).1 j = G (X m c) (GW m c) (UW m c) (DW m c) (((cfg0.win 4).blk t).view.emb j)
  have hj : ((cfg0.win 4).blk t).view.emb j = ix2 (rowAt t (j 0)) (j 1) := by
    funext a
    apply Fin.ext
    match a with
    | ⟨0, _⟩ => show win0_4.index t 0 * 256 + 1 * (j 0).val = (t.val / 32) * 256 + (j 0).val; rw [(index_o t).1]; omega
    | ⟨1, _⟩ => show win0_4.index t 1 * 2048 + 1 * (j 1).val = (j 1).val; rw [(index_o t).2]; omega
  rw [hj]
  exact (congrArg (outsAt0 m c t.val t.isLt).1 (eq_ix2 j)).trans (out_block m c t h31 (j 0) (j 1))

/-- An index of the array is in point `t`'s block iff each coordinate is in the block's range on its axis. -/
theorem mem_blk (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v0).slice (win0_4.rect t)).set ↔ _
  rw [View.set_slice_whole, Rect.mem_set_unit]
  exact Iff.rfl

/-- Every index of the array is in the block some last inner tile writes back: row `ρ` in that of token tile `ρ / 256`. -/
theorem cover (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  refine ⟨⟨32 * ((i 0).val / 256) + 31, lt_of_lt_of_eq (by omega : 32 * ((i 0).val / 256) + 31 < 1024) N_eq.symm⟩, (flush0_4 _).mpr (by show (32 * ((i 0).val / 256) + 31) % 32 = 31; omega), ?_⟩
  rw [mem_blk]
  intro a
  match a with
  | ⟨0, _⟩ =>
    show win0_4.index _ 0 * 256 ≤ (i 0).val ∧ (i 0).val < win0_4.index _ 0 * 256 + 256
    rw [(index_o _).1]
    show (32 * ((i 0).val / 256) + 31) / 32 * 256 ≤ (i 0).val ∧ (i 0).val < (32 * ((i 0).val / 256) + 31) / 32 * 256 + 256
    omega
  | ⟨1, _⟩ =>
    show win0_4.index _ 1 * 2048 ≤ (i 1).val ∧ (i 1).val < win0_4.index _ 1 * 2048 + 2048
    rw [(index_o _).2]
    omega

/-- THE ARRAY after the run is the specification of the argument arrays. -/
theorem final (c : Dev nD) : (dats m 0 c).arrAt 4 cfg0.N = G (X m c) (GW m c) (UW m c) (DW m c) :=
  (dats m 0 c).arrAt_eq_of_cover 4 (G (X m c) (GW m c) (UW m c) (DW m c)) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0) = G (X m c) (GW m c) (UW m c) (DW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Fold

end
-- ==== Proof.lean ====
/-
  A mixture-of-experts feed-forward block, tiled, against its plain statement.

  Eight experts each own 1024 of the 8192 token rows. For a row `x` of expert `e`, the block computes
      out = (up_e(x) ⊙ silu(gate_e(x))) · down_e,      silu(g) = g · 1 / (1 + e^(-g)),
  where gate_e and up_e map the 2048 hidden features to 8192 inner features and down_e maps them back.

  The kernel walks a grid of 8 experts × 4 row tiles × 32 inner tiles. At each point it forms the gate and up
  projections of a 256-row tile for 256 inner features, applies the activation, multiplies by the matching 256 rows
  of down_e, and adds the product into a running block that it zeroes at the first inner tile and writes out at the
  last. The reference does the same arithmetic in one piece: two batched contractions, the activation spelt
  `g · (1 / (1 + e^(-g)))`, one contraction over all 8192 inner features.

  Over the extended reals the two agree entry by entry. Narrowing to bf16 is the identity there; the kernel's logistic
  function is `1 / (1 + e^(-g))` by definition; a product into a zero accumulator is the plain sum of products; and the
  sum over 8192 inner features is the sum over 32 tiles of the tiles' partial sums, which is re-indexing in a
  commutative monoid. No step distributes or cancels, so finiteness of the inputs is never used.

  Modules: Spec (the result as one function of the four arrays, and the tile law), RefValue (the reference's term is
  that function), Payload (the body's stored value at an index), Pieces (what one run of the body leaves), Blocks
  (where each block sits in its array), Fold (the running block is a partial sum; the written-back blocks tile the
  array). The three frame claims are the generated frame runs; the idealization rewrote nothing.
-/
import proofs.«134705_j5394478924014_1_alg».proof.Defs
import proofs.«134705_j5394478924014_1_alg».proof.Proof.Gen.Kernel
import proofs.«134705_j5394478924014_1_alg».proof.Proof.Gen.Kernel.Frame
import proofs.«134705_j5394478924014_1_alg».proof.Proof.Gen.KernelIdeal
import proofs.«134705_j5394478924014_1_alg».proof.Proof.Gen.KernelIdeal.Frame
import proofs.«134705_j5394478924014_1_alg».proof.Proof.Gen.ReferenceIdeal
import proofs.«134705_j5394478924014_1_alg».proof.Proof.Gen.Pre_finite_inputs
import proofs.«134705_j5394478924014_1_alg».proof.Proof.Gen.KernelIdeal.Value
import proofs.«134705_j5394478924014_1_alg».proof.Proof.Gen.ReferenceIdeal.Run
import proofs.«134705_j5394478924014_1_alg».proof.Proof.Gen.ReferenceIdeal.Read
import proofs.«134705_j5394478924014_1_alg».proof.Proof.Spec
import proofs.«134705_j5394478924014_1_alg».proof.Proof.RefValue
import proofs.«134705_j5394478924014_1_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are both the specification. -/
theorem algebraic : Cert.algebraic_KernelIdeal_ReferenceIdeal := by
  intro m ρ m' ρ' _ hagree
  refine ⟨fun c => Cert.Swiglu.G (Cert.KernelIdeal.Fold.X m c) (Cert.KernelIdeal.Fold.GW m c) (Cert.KernelIdeal.Fold.UW m c)
    (Cert.KernelIdeal.Fold.DW m c), Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
